-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S4000x128 : Shape := ⟨2, ![4000, 128]⟩

abbrev nBuf : Space → Nat
  | .hbm => 40
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S128x128, .f32⟩
  | .hbm, ⟨37, _⟩ => ⟨S1x128, .f32⟩
  | .hbm, ⟨38, _⟩ => ⟨S1x128, .f32⟩
  | .hbm, ⟨39, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v22) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S_, .f32⟩
  | .hbm, ⟨24, _⟩ => ⟨S1600000, .f32⟩
  | .hbm, ⟨25, _⟩ => ⟨S_, .f32⟩
  | .hbm, ⟨26, _⟩ => ⟨S100000, .f32⟩
  | .hbm, ⟨27, _⟩ => ⟨S1600000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.KernelBlock.lean ====
/-
  ONE GRID POINT'S BLOCK. At a grid point the kernel holds 4000 rows of the neighbour means and of the nodes' own
  features, both transposed weight matrices whole and both bias rows, and stores, at row p and channel q of its output
  block, the two matrix products' entries added, then the two biases: narrowing an operand to bf16 is the identity on
  the extended reals, each product into the zero splat is the sum over the contracted channel, and a bias row
  broadcast over the 4000 rows is read at its one row.
-/
import proofs.«142253_j7473243095279_1_alg».proof.Proof.Gen.KernelIdeal.Skeleton
import proofs.«142253_j7473243095279_1_alg».proof.Proof.LibPlainMatmul
import Idealize.ShloMosaic.Lib.Pipeline.Value
import Idealize.ShloMosaic.Lib.ValueLayout

open scoped BigOperators

noncomputable section

namespace Cert.KernelIdeal.Hand

open Cert.KernelIdeal Cert.KernelIdeal.Gen Idealize.ShloMosaic Idealize.ShloMosaic.ValueIdx

/-- The kernel's contraction is the plain one: rows of the left operand against columns of the right. -/
theorem dot_plain : dot_S4000x128_S128x128_S4000x128_1_0_0_1_n_n
    = PlainMatmul.dims (m := 4000) (k := 128) (n := 128) dot_S4000x128_S128x128_S4000x128_1_0_0_1_n_n.wf := rfl

/-- The stored value at row `p`, channel `q` of the block. -/
theorem payload_apply (a x : Vec Ideal S4000x128 .f32) (ws wd : Vec Ideal S128x128 .f32) (bs bd : Vec Ideal S1x128 .f32)
    (p : Fin 4000) (q : Fin 128) :
    k0_pay1 (F := Ideal) a x ws wd bs bd (ix2 p q)
      = (∑ k : Fin 128, a (ix2 p k) * ws (ix2 k q)) + (∑ k : Fin 128, x (ix2 p k) * wd (ix2 k q))
        + bs (ix2 (0 : Fin 1) q) + bd (ix2 (0 : Fin 1) q) := by
  unfold k0_pay1
  simp only [shapeCast_self]
  show (matmul (F := Ideal) dot_S4000x128_S128x128_S4000x128_1_0_0_1_n_n none (truncf (F := Ideal) .bf16 a bitsLt_bf16_f32) (truncf (F := Ideal) .bf16 ws bitsLt_bf16_f32)
          (constant (F := Ideal) S4000x128 .f32 0x00000000#32) (ix2 p q)
        + matmul (F := Ideal) dot_S4000x128_S128x128_S4000x128_1_0_0_1_n_n none (truncf (F := Ideal) .bf16 x bitsLt_bf16_f32) (truncf (F := Ideal) .bf16 wd bitsLt_bf16_f32)
          (constant (F := Ideal) S4000x128 .f32 0x00000000#32) (ix2 p q))
      + broadcastTo S4000x128 bs broadcasts_S1x128_S4000x128 (ix2 p q)
      + broadcastTo S4000x128 bd broadcasts_S1x128_S4000x128 (ix2 p q) = _
  rw [PlainMatmul.matmul_zero_apply _ _ dot_plain, PlainMatmul.matmul_zero_apply _ _ dot_plain,
    broadcastTo_1b_ab_apply, broadcastTo_1b_ab_apply]
  rfl

end Cert.KernelIdeal.Hand

end
-- ==== Proof.BlockReads.lean ====
/-
  WHERE A GRID POINT'S BLOCKS LIE IN THEIR ARRAYS. The grid has 25 points. At point t the two row-blocked inputs and the
  output hold rows 4000·t … 4000·t + 3999 of their arrays, all 128 channels; the two transposed weight matrices and the
  two bias rows are staged whole at every point. So, whatever an array holds, row p of a row-blocked window's block is
  the array's row 4000·t + p, and a whole window's block is the array itself.
-/
import proofs.«142253_j7473243095279_1_alg».proof.Proof.Gen.KernelIdeal.Launch
import Idealize.ShloMosaic.Lib.Pipeline.Value
import Idealize.ShloMosaic.Lib.ValueIdx

open scoped BigOperators

noncomputable section

namespace Cert.KernelIdeal.Hand

open Cert.KernelIdeal Cert.KernelIdeal.Gen Idealize.ShloMosaic Idealize.ShloMosaic.TcCoe Idealize.SL.Sem
open Idealize.ShloMosaic.ValueIdx

theorem points_lt (t : Fin cfg0.N) : t.val < 25 := lt_of_lt_of_eq t.isLt N_0

/-- Row `p` of point `t`'s block, as a row of the whole array. -/
def rowOf (t : Fin cfg0.N) (p : Fin 4000) : Fin 100000 :=
  ⟨t.val * 4000 + p.val, by have := points_lt t; have := p.isLt; omega⟩

theorem rowOf_val (t : Fin cfg0.N) (p : Fin 4000) : (rowOf t p).val = t.val * 4000 + p.val := rfl

/-- The printed index maps over the 25 points: the three row-blocked windows sit at block row `t`, the four whole ones
    at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbour means' block at point `t`, read off any contents `A` of their array. -/
theorem means_read (A : S100000x128.Idx → EReal) (t : Fin cfg0.N) (p : Fin 4000) (k : Fin 128) :
    ((cfg0.win 0).blk t).view.read (Elt Ideal) A (ix2 p k) = A (ix2 (rowOf t p) k) := by
  obtain ⟨e0, e1, -⟩ := index_facts t
  show A (((cfg0.win 0).blk t).view.emb (ix2 p k)) = _
  refine congrArg A (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The features' block at point `t`. -/
theorem features_read (A : S100000x128.Idx → EReal) (t : Fin cfg0.N) (p : Fin 4000) (k : Fin 128) :
    ((cfg0.win 1).blk t).view.read (Elt Ideal) A (ix2 p k) = A (ix2 (rowOf t p) k) := by
  obtain ⟨-, -, e0, e1, -⟩ := index_facts t
  show A (((cfg0.win 1).blk t).view.emb (ix2 p k)) = _
  refine congrArg A (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * k.val = k.val; omega

/-- The first transposed weight matrix is staged whole at every point. -/
theorem weights_first_read (A : S128x128.Idx → EReal) (t : Fin cfg0.N) (k q : Fin 128) :
    ((cfg0.win 2).blk t).view.read (Elt Ideal) A (ix2 k q) = A (ix2 k q) := by
  obtain ⟨-, -, -, -, e0, e1, -⟩ := index_facts t
  show A (((cfg0.win 2).blk t).view.emb (ix2 k q)) = _
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is the second. -/
theorem weights_second_read (A : S128x128.Idx → EReal) (t : Fin cfg0.N) (k q : Fin 128) :
    ((cfg0.win 4).blk t).view.read (Elt Ideal) A (ix2 k q) = A (ix2 k q) := by
  obtain ⟨-, -, -, -, -, -, -, -, e0, e1, -⟩ := index_facts t
  show A (((cfg0.win 4).blk t).view.emb (ix2 k q)) = _
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * q.val = q.val; omega

/-- The first bias row is staged whole at every point. -/
theorem bias_first_read (A : S1x128.Idx → EReal) (t : Fin cfg0.N) (q : Fin 128) :
    ((cfg0.win 3).blk t).view.read (Elt Ideal) A (ix2 (0 : Fin 1) q) = A (ix2 (0 : Fin 1) q) := by
  obtain ⟨-, -, -, -, -, -, e0, e1, -⟩ := index_facts t
  show A (((cfg0.win 3).blk t).view.emb (ix2 (0 : Fin 1) q)) = _
  refine congrArg A (funext fun a => Fin.ext ?_)
  match a with
  | ⟨0, _⟩ => show win0_3.index t (0 : Fin 2) * 1 + 1 * 0 = 0; omega
  | ⟨1, _⟩ => show win0_3.index t (1 : Fin 2) * 128 + 1 * q.val = q.val; omega

/-- So is the second. -/
theorem bias_second_read (A : S1x128.Idx → EReal) (t : Fin cfg0.N) (q : Fin 128) :
    ((cfg0.win 5).blk t).view.read (Elt Ideal) A (ix2 (0 : Fin 1) q) = A (ix2 (0 : Fin 1) q) := by
  obtain ⟨-, -, -, -, -, -, -, -, -, -, e0, e1, -⟩ := index_facts t
  show A (((cfg0.win 5).blk t).view.emb (ix2 (0 : Fin 1) q)) = _
  refine congrArg A (funext fun a => Fin.ext ?_)
  match a with
  | ⟨0, _⟩ => show win0_5.index t (0 : Fin 2) * 1 + 1 * 0 = 0; omega
  | ⟨1, _⟩ => show win0_5.index t (1 : Fin 2) * 128 + 1 * q.val = q.val; omega

/-- Row `p`, channel `q` of the output's block at point `t` is row 4000·t + p, channel `q` of the array. -/
theorem out_block (t : Fin cfg0.N) (p : Fin 4000) (q : Fin 128) :
    ((cfg0.win 6).blk t).view.emb (ix2 p q) = (ix2 (rowOf t p) q : S100000x128.Idx) := by
  obtain ⟨-, -, -, -, -, -, -, -, -, -, -, -, e0, e1⟩ := index_facts t
  refine funext fun a => Fin.ext ?_
  match a with
  | ⟨0, _⟩ => show win0_6.index t (0 : Fin 2) * 4000 + 1 * p.val = t.val * 4000 + p.val; omega
  | ⟨1, _⟩ => show win0_6.index t (1 : Fin 2) * 128 + 1 * q.val = q.val; omega

/-- Any function of the output array, read through point `t`'s block at row `p`, channel `q`. -/
theorem out_read (G : S100000x128.Idx → EReal) (t : Fin cfg0.N) (p : Fin 4000) (q : Fin 128) :
    ((cfg0.win 6).blk t).view.read (Elt Ideal) G (ix2 p q) = G (ix2 (rowOf t p) q) := by
  show G (((cfg0.win 6).blk t).view.emb (ix2 p q)) = _
  rw [out_block]

/-- The output's block is written back whole: no row of it overhangs the array. -/
theorem out_whole (X : S4000x128.Idx → EReal) (t : Fin cfg0.N) (j : S4000x128.Idx) :
    (cfg0.win 6).cut (grid0.coords t) X j = X j := rfl

end Cert.KernelIdeal.Hand

end
-- ==== Proof.Spec.lean ====
/-
  THE FUSED PROJECTION, ENTRY BY ENTRY. With `agg` the per-node mean of the neighbours' feature rows, `x` the nodes'
  own rows, `Ws` and `Wd` the two weight matrices already transposed (so contracted on their rows) and `bs`, `bd` the
  two biases by channel, the layer's output at node p and channel q is

      Σ_k agg(p, k) · Ws(k, q)  +  Σ_k x(p, k) · Wd(k, q)  +  bs(q)  +  bd(q)

  on the extended reals. The kernel adds the two products first and the biases afterwards; jnp adds the first bias
  between the two products. The two groupings agree by commutativity and associativity of the extended reals'
  addition alone, so no entry has to be finite.
-/
import Idealize.ShloMosaic.Lib.ValueIdx
import Idealize.ShloMosaic.PureOps.Ideal.Laws

open scoped BigOperators

noncomputable section

namespace Cert.Projection

open Idealize.ShloMosaic Idealize.ShloMosaic.ValueIdx

/-- Node features: 100000 nodes by 128 channels. -/
abbrev Nodes : Shape := ⟨2, ![100000, 128]⟩
/-- A weight matrix, 128 by 128. -/
abbrev Weights : Shape := ⟨2, ![128, 128]⟩

/-- The output at node `p`, channel `q`, in the kernel's grouping: both products, then both biases. -/
def entry (agg x : FVec Ideal Nodes .f32) (Ws Wd : FVec Ideal Weights .f32) (bs bd : Fin 128 → EReal)
    (p : Fin 100000) (q : Fin 128) : EReal :=
  (∑ k : Fin 128, agg (ix2 p k) * Ws (ix2 k q)) + (∑ k : Fin 128, x (ix2 p k) * Wd (ix2 k q)) + bs q + bd q

/-- The whole output array. -/
def out (agg x : FVec Ideal Nodes .f32) (Ws Wd : FVec Ideal Weights .f32) (bs bd : Fin 128 → EReal) :
    FVec Ideal Nodes .f32 :=
  fun i => entry agg x Ws Wd bs bd (i 0) (i 1)

theorem out_apply (agg x : FVec Ideal Nodes .f32) (Ws Wd : FVec Ideal Weights .f32) (bs bd : Fin 128 → EReal)
    (p : Fin 100000) (q : Fin 128) : out agg x Ws Wd bs bd (ix2 p q) = entry agg x Ws Wd bs bd p q := rfl

/-- jnp's grouping — the first product, its bias, the second product, its bias — is the same extended real. -/
theorem regroup (A B s d : EReal) : A + s + B + d = A + B + s + d := by
  rw [add_right_comm A s B]

end Cert.Projection

end
-- ==== Proof.KernelValue.lean ====
/-
  FROM THE GRID'S BLOCKS TO THE WHOLE ARRAY. What point t writes back is the kernel's stored block of the point's input
  blocks; each input block is rows of (or the whole of) the array the region finds, so the write-back is exactly block t
  of the projection of those arrays. The 25 blocks cover all 100000 rows (row r lies in block r / 4000), so after the
  run the output array is that projection.
-/
import proofs.«142253_j7473243095279_1_alg».proof.Proof.Gen.KernelIdeal.Value
import proofs.«142253_j7473243095279_1_alg».proof.Proof.KernelBlock
import proofs.«142253_j7473243095279_1_alg».proof.Proof.BlockReads
import proofs.«142253_j7473243095279_1_alg».proof.Proof.Spec
import Idealize.ShloMosaic.Lib.Pipeline.Value

open scoped BigOperators

noncomputable section

namespace Cert.KernelIdeal.Hand

open Cert.KernelIdeal Cert.KernelIdeal.Gen Idealize.ShloMosaic Idealize.ShloMosaic.TcCoe Idealize.SL.Sem
open Idealize.ShloMosaic.ValueIdx
open Cert.KernelIdeal.Value
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The output array as one function: the projection of the arrays the region finds. -/
def whole (c : Dev nD) : FVec Ideal S100000x128 .f32 :=
  Projection.out (V m c main_v22) (V m c main_arg0) (V m c main_v23) (V m c main_v24)
    (fun q => (V m c main_v25 : S1x128.Idx → EReal) (ix2 (0 : Fin 1) q)) (fun q => (V m c main_v26 : S1x128.Idx → EReal) (ix2 (0 : Fin 1) q))

/-- Each input window's block at point `t`, as entries of the array the region finds. -/
theorem means_block (c : Dev nD) (t : Fin cfg0.N) (p : Fin 4000) (k : Fin 128) :
    (iblk m c 0 t : Vec Ideal S4000x128 .f32) (ix2 p k) = (V m c main_v22 : S100000x128.Idx → EReal) (ix2 (rowOf t p) k) := by
  unfold iblk
  exact means_read (V m c (Pipeline.arrRef spec0 0)) t p k
theorem features_block (c : Dev nD) (t : Fin cfg0.N) (p : Fin 4000) (k : Fin 128) :
    (iblk m c 1 t : Vec Ideal S4000x128 .f32) (ix2 p k) = (V m c main_arg0 : S100000x128.Idx → EReal) (ix2 (rowOf t p) k) := by
  unfold iblk
  exact features_read (V m c (Pipeline.arrRef spec0 1)) t p k
theorem weights_first_block (c : Dev nD) (t : Fin cfg0.N) (k q : Fin 128) :
    (iblk m c 2 t : Vec Ideal S128x128 .f32) (ix2 k q) = (V m c main_v23 : S128x128.Idx → EReal) (ix2 k q) := by
  unfold iblk
  exact weights_first_read (V m c (Pipeline.arrRef spec0 2)) t k q
theorem bias_first_block (c : Dev nD) (t : Fin cfg0.N) (q : Fin 128) :
    (iblk m c 3 t : Vec Ideal S1x128 .f32) (ix2 (0 : Fin 1) q) = (V m c main_v25 : S1x128.Idx → EReal) (ix2 (0 : Fin 1) q) := by
  unfold iblk
  exact bias_first_read (V m c (Pipeline.arrRef spec0 3)) t q
theorem weights_second_block (c : Dev nD) (t : Fin cfg0.N) (k q : Fin 128) :
    (iblk m c 4 t : Vec Ideal S128x128 .f32) (ix2 k q) = (V m c main_v24 : S128x128.Idx → EReal) (ix2 k q) := by
  unfold iblk
  exact weights_second_read (V m c (Pipeline.arrRef spec0 4)) t k q
theorem bias_second_block (c : Dev nD) (t : Fin cfg0.N) (q : Fin 128) :
    (iblk m c 5 t : Vec Ideal S1x128 .f32) (ix2 (0 : Fin 1) q) = (V m c main_v26 : S1x128.Idx → EReal) (ix2 (0 : Fin 1) q) := by
  unfold iblk
  exact bias_second_read (V m c (Pipeline.arrRef spec0 5)) t q

/-- What point `t` writes back is block `t` of the projection. -/
theorem flushed_eq (c : Dev nD) (t : Fin cfg0.N) :
    (dats m 0 c).flushed 6 t = ((cfg0.win 6).blk t).view.read (Elt Ideal) (whole m c) := by
  funext j
  obtain ⟨p, q, rfl⟩ : ∃ (p : Fin 4000) (q : Fin 128), j = ix2 p q := ⟨j 0, j 1, eq_ix2 j⟩
  rw [out_read (whole m c) t p q, flushed6, out_whole]
  unfold out0_6
  rw [View.canon_unit_zero origin]
  simp only [View.ld_unit_zero (S := S4000x128) origin, View.ld_unit_zero (S := S128x128) origin, View.ld_unit_zero (S := S1x128) origin]
  refine (payload_apply (iblk m c 0 t) (iblk m c 1 t) (iblk m c 2 t) (iblk m c 4 t) (iblk m c 3 t) (iblk m c 5 t) p q).trans ?_
  unfold whole
  rw [Projection.out_apply]
  unfold Projection.entry
  simp only [means_block m c t p, features_block m c t p, weights_first_block m c t, weights_second_block m c t,
    bias_first_block m c t, bias_second_block m c t]

/-- An index of the array is in point `t`'s block iff each coordinate is in the block's range on its axis. -/
theorem mem_block (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v27).slice (win0_6.rect t)).set ↔ _
  rw [View.set_slice_whole, Rect.mem_set_unit]
  exact Iff.rfl

/-- Every row lies in some point's block: row r in block r / 4000. -/
theorem covered (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := index_facts t
  refine ⟨t, flush0_6 t, ?_⟩
  rw [mem_block]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- After the run the output array is the projection of the arrays the region finds. -/
theorem final (c : Dev nD) : (dats m 0 c).arrAt 6 cfg0.N = whole m c :=
  (dats m 0 c).arrAt_eq_of_cover 6 (whole m c) (fun t _ => flushed_eq m c t) covered

end Cert.KernelIdeal.Hand

end
-- ==== Proof.HostArrays.lean ====
/-
  THE ARRAYS THE REGION FINDS. Before the kernel runs, the host has computed the per-node neighbour means (a gather of
  the source rows, two scatter-adds by destination, a clamp of the counts at one and a quotient), transposed the two
  weight matrices and reshaped each bias to one row. jnp's reference computes the means and the transposes by the very
  same operations, so those three arrays are, term for term, the reference's own stages; a bias reshaped to one row is
  read at its channel.
-/
import proofs.«142253_j7473243095279_1_alg».proof.Proof.Gen.KernelIdeal.Frame
import proofs.«142253_j7473243095279_1_alg».proof.Proof.Gen.ReferenceIdeal.Read
import Idealize.ShloMosaic.Lib.StableHlo.Run
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The neighbour means the kernel is launched on are the reference's. -/
theorem means_host (c : Dev nD) :
    (V m c main_v22 : S100000x128.Idx → EReal)
      = Cert.ReferenceIdeal.Read.val_main_v22 (F := Ideal) (m ((c : Thread nD τ).loc main_arg0)) (m ((c : Thread nD τ).loc main_arg1)) := by
  dsimp only [Gen.V, Gen.hostOps0]
  after_results_simp <;> rfl

/-- The first transposed weight matrix is the reference's. -/
theorem weights_first_host (c : Dev nD) :
    (V m c main_v23 : S128x128.Idx → EReal)
      = Cert.ReferenceIdeal.Read.val_main_v23 (F := Ideal) (m ((c : Thread nD τ).loc main_arg2)) := by
  dsimp only [Gen.V, Gen.hostOps0]
  after_results_simp <;> rfl

/-- So is the second. -/
theorem weights_second_host (c : Dev nD) :
    (V m c main_v24 : S128x128.Idx → EReal)
      = Cert.ReferenceIdeal.Read.val_main_v28 (F := Ideal) (m ((c : Thread nD τ).loc main_arg4)) := by
  dsimp only [Gen.V, Gen.hostOps0]
  after_results_simp <;> rfl

/-- The first bias, reshaped to one row, read at channel `q`. -/
theorem bias_first_host (c : Dev nD) (q : Fin 128) :
    (V m c main_v25 : S1x128.Idx → EReal) (ix2 (0 : Fin 1) q) = (m ((c : Thread nD τ).loc main_arg3) : S128.Idx → EReal) (ix1 q) := by
  have e : (V m c main_v25 : S1x128.Idx → EReal)
      = shapeCast S1x128 (m ((c : Thread nD τ).loc main_arg3) : S128.Idx → EReal) shapeCasts_S128_S1x128 := by
    dsimp only [Gen.V, Gen.hostOps0]
    after_results_simp <;> rfl
  rw [e]
  exact shapeCast_a_1a_apply _ _ (0 : Fin 1) q

/-- The second bias, reshaped to one row, read at channel `q`. -/
theorem bias_second_host (c : Dev nD) (q : Fin 128) :
    (V m c main_v26 : S1x128.Idx → EReal) (ix2 (0 : Fin 1) q) = (m ((c : Thread nD τ).loc main_arg5) : S128.Idx → EReal) (ix1 q) := by
  have e : (V m c main_v26 : S1x128.Idx → EReal)
      = shapeCast S1x128 (m ((c : Thread nD τ).loc main_arg5) : S128.Idx → EReal) shapeCasts_S128_S1x128 := by
    dsimp only [Gen.V, Gen.hostOps0]
    after_results_simp <;> rfl
  rw [e]
  exact shapeCast_a_1a_apply _ _ (0 : Fin 1) q

end Cert.KernelIdeal.Hand

end
-- ==== Proof.RefValue.lean ====
/-
  THE REFERENCE, ENTRY BY ENTRY. jnp's `agg_mean @ W_src.T + b_src + x @ W_dst.T + b_dst`, read at node p and
  channel q: each `dot_general` is the sum over the contracted channel of the left operand's row p against the
  transposed weight's column q; each bias, broadcast first to one row and then over all nodes, is read at channel q.
  Regrouping the four summands gives the projection's entry. The neighbour means and the two transposes are left as
  the operations' own terms: both programs compute them by the same host operations.
-/
import proofs.«142253_j7473243095279_1_alg».proof.Proof.Gen.ReferenceIdeal.Read
import proofs.«142253_j7473243095279_1_alg».proof.Proof.Spec

open scoped BigOperators

noncomputable section

namespace Cert.ReferenceIdeal.Hand

open Cert.ReferenceIdeal Cert.ReferenceIdeal.Read Idealize.ShloMosaic Idealize.ShloMosaic.ValueIdx

/-- Row `p` of the left operand, column `q` of the right one, at contracted channel `k` (first product). -/
theorem left_first (p : Fin 100000) (q k : Fin 128) : lidx_main_v24 (ix2 p q) k = ix2 p k :=
  funext fun a => Fin.ext (by match a with | ⟨0, _⟩ => rfl | ⟨1, _⟩ => rfl)
theorem right_first (p : Fin 100000) (q k : Fin 128) : ridx_main_v24 (ix2 p q) k = ix2 k q :=
  funext fun a => Fin.ext (by match a with | ⟨0, _⟩ => rfl | ⟨1, _⟩ => rfl)
/-- The same for the second product. -/
theorem left_second (p : Fin 100000) (q k : Fin 128) : lidx_main_v29 (ix2 p q) k = ix2 p k :=
  funext fun a => Fin.ext (by match a with | ⟨0, _⟩ => rfl | ⟨1, _⟩ => rfl)
theorem right_second (p : Fin 100000) (q k : Fin 128) : ridx_main_v29 (ix2 p q) k = ix2 k q :=
  funext fun a => Fin.ext (by match a with | ⟨0, _⟩ => rfl | ⟨1, _⟩ => rfl)
/-- A bias broadcast to one row and then over the nodes is read at its channel. -/
theorem bias_first (p : Fin 100000) (q : Fin 128) : idx_main_v25 (idx_main_v26 (ix2 p q)) = ix1 q :=
  funext fun a => Fin.ext (by match a with | ⟨0, _⟩ => rfl)
theorem bias_second (p : Fin 100000) (q : Fin 128) : idx_main_v31 (idx_main_v32 (ix2 p q)) = ix1 q :=
  funext fun a => Fin.ext (by match a with | ⟨0, _⟩ => rfl)

/-- The reference's result is the projection of the neighbour means, the features, the transposed weights and the biases. -/
theorem result_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v33 (F := Ideal) x0 x1 x2 x3 x4 x5
      = Projection.out (val_main_v22 (F := Ideal) x0 x1) x0 (val_main_v23 (F := Ideal) x2) (val_main_v28 (F := Ideal) x4)
          (fun q => x3 (ix1 q)) (fun q => x5 (ix1 q)) := by
  funext i
  obtain ⟨p, q, rfl⟩ : ∃ (p : Fin 100000) (q : Fin 128), i = ix2 p q := ⟨i 0, i 1, eq_ix2 i⟩
  rw [val_main_v33_apply, val_main_v30_apply, val_main_v27_apply, val_main_v24_apply, val_main_v29_apply,
    val_main_v26_apply, val_main_v25_apply, val_main_v32_apply, val_main_v31_apply, Projection.out_apply]
  simp only [left_first, right_first, left_second, right_second, bias_first, bias_second, Ideal.addf_def]
  exact Projection.regroup _ _ _ _

end Cert.ReferenceIdeal.Hand

end
-- ==== Proof.lean ====
/-
  A GraphSAGE-style layer with mean aggregation: out = mean_{j → i} x_j · W_srcᵀ + b_src + x_i · W_dstᵀ + b_dst over
  100000 nodes, 128 channels and 1.6 million edges. Kernel and reference compute the per-node neighbour means and the
  two transposed weight matrices by the same host operations; the kernel then forms both products on 25 blocks of 4000
  rows, adds them, and adds the two biases, where jnp forms whole products and adds the first bias between them. On the
  extended reals a narrowing of an operand to bf16 is the identity, a blocked product into a zero accumulator is the
  whole product's rows, and the two orders of the four summands agree by commutativity and associativity of addition,
  so the two results are equal entry by entry and the inputs' finiteness is never used.

  The modules: Spec (the projection's entry and the regrouping), KernelBlock (the stored block at an entry), BlockReads
  (where each window's block lies in its array), KernelValue (from the 25 write-backs to the whole output array),
  HostArrays (the arrays the kernel is launched on, as the reference's own stages), RefValue (the reference's result as
  the projection).
-/
import proofs.«142253_j7473243095279_1_alg».proof.Defs
import proofs.«142253_j7473243095279_1_alg».proof.Proof.Gen.Kernel
import proofs.«142253_j7473243095279_1_alg».proof.Proof.Gen.Kernel.Skeleton
import proofs.«142253_j7473243095279_1_alg».proof.Proof.Gen.Kernel.Launch
import proofs.«142253_j7473243095279_1_alg».proof.Proof.Gen.Kernel.Points
import proofs.«142253_j7473243095279_1_alg».proof.Proof.Gen.Kernel.Frame
import proofs.«142253_j7473243095279_1_alg».proof.Proof.Gen.KernelIdeal
import proofs.«142253_j7473243095279_1_alg».proof.Proof.Gen.KernelIdeal.Skeleton
import proofs.«142253_j7473243095279_1_alg».proof.Proof.Gen.KernelIdeal.Launch
import proofs.«142253_j7473243095279_1_alg».proof.Proof.Gen.KernelIdeal.Points
import proofs.«142253_j7473243095279_1_alg».proof.Proof.Gen.KernelIdeal.Frame
import proofs.«142253_j7473243095279_1_alg».proof.Proof.Gen.ReferenceIdeal
import proofs.«142253_j7473243095279_1_alg».proof.Proof.Gen.Pre_finite_inputs
import proofs.«142253_j7473243095279_1_alg».proof.Proof.Gen.KernelIdeal.Value
import proofs.«142253_j7473243095279_1_alg».proof.Proof.Gen.ReferenceIdeal.Run
import proofs.«142253_j7473243095279_1_alg».proof.Proof.Gen.ReferenceIdeal.Read
import proofs.«142253_j7473243095279_1_alg».proof.Proof.KernelValue
import proofs.«142253_j7473243095279_1_alg».proof.Proof.HostArrays
import proofs.«142253_j7473243095279_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The projection of equal arrays is the same array. -/
theorem out_congr {agg agg' x x' : FVec Ideal Cert.Projection.Nodes .f32} {Ws Ws' Wd Wd' : FVec Ideal Cert.Projection.Weights .f32}
    {bs bs' bd bd' : Fin 128 → EReal} (h1 : agg = agg') (h2 : x = x') (h3 : Ws = Ws') (h4 : Wd = Wd') (h5 : bs = bs') (h6 : bd = bd') :
    Cert.Projection.out agg x Ws Wd bs bd = Cert.Projection.out agg' x' Ws' Wd' bs' bd' := by
  subst h1 h2 h3 h4 h5 h6; rfl

/-- The kernel's output array after the run, in the reference's terms: the projection of the reference's neighbour
    means and transposed weights, the features and the two biases, all of the kernel's own arguments. -/
theorem kernel_result (m : (ℓ : Loc Cert.KernelIdeal.nD Cert.KernelIdeal.τ Cert.KernelIdeal.sig) → Buf (Elt Ideal) ℓ)
    (c : Dev Cert.KernelIdeal.nD) :
    Cert.KernelIdeal.Hand.whole m c
      = Cert.Projection.out
          (Cert.ReferenceIdeal.Read.val_main_v22 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (m ((c : Thread Cert.KernelIdeal.nD Cert.KernelIdeal.τ).loc Cert.KernelIdeal.main_arg0))
          (Cert.ReferenceIdeal.Read.val_main_v23 (F := Ideal) (m ((c : Thread Cert.KernelIdeal.nD Cert.KernelIdeal.τ).loc Cert.KernelIdeal.main_arg2)))
          (Cert.ReferenceIdeal.Read.val_main_v28 (F := Ideal) (m ((c : Thread Cert.KernelIdeal.nD Cert.KernelIdeal.τ).loc Cert.KernelIdeal.main_arg4)))
          (fun q => (m ((c : Thread Cert.KernelIdeal.nD Cert.KernelIdeal.τ).loc Cert.KernelIdeal.main_arg3) : Cert.KernelIdeal.S128.Idx → EReal) (ix1 q))
          (fun q => (m ((c : Thread Cert.KernelIdeal.nD Cert.KernelIdeal.τ).loc Cert.KernelIdeal.main_arg5) : Cert.KernelIdeal.S128.Idx → EReal) (ix1 q)) := by
  unfold Cert.KernelIdeal.Hand.whole
  exact out_congr (Cert.KernelIdeal.Hand.means_host m c) (Cert.KernelIdeal.Gen.V_main_arg0 m c)
    (Cert.KernelIdeal.Hand.weights_first_host m c) (Cert.KernelIdeal.Hand.weights_second_host m c)
    (funext (Cert.KernelIdeal.Hand.bias_first_host m c)) (funext (Cert.KernelIdeal.Hand.bias_second_host m c))

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the projection of the kernel's arguments in the output array. -/
theorem algebraic : Cert.algebraic_KernelIdeal_ReferenceIdeal := by
  intro m ρ m' ρ' _ hagree
  refine ⟨fun c => Cert.KernelIdeal.Hand.whole m c, ?_, ?_⟩
  · exact (θ_run Cert.KernelIdeal.defs _ _).mono
      (fun r h c => ⟨(h c).1.trans (Cert.KernelIdeal.Hand.final m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5⟩ := hagree c
    show _ = Cert.KernelIdeal.Hand.whole m c
    rw [Cert.ReferenceIdeal.Read.val_main_v33_eq, Cert.ReferenceIdeal.Hand.result_eq, kernel_result, h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
